-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 104
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x128, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x1, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000, .f32⟩
  | .hbm, ⟨77, _⟩ => ⟨S_, .i32⟩
  | .hbm, ⟨78, _⟩ => ⟨S650000, .i32⟩
  | .hbm, ⟨79, _⟩ => ⟨S650000, .i1⟩
  | .hbm, ⟨80, _⟩ => ⟨S_, .i32⟩
  | .hbm, ⟨81, _⟩ => ⟨S650000, .i32⟩
  | .hbm, ⟨82, _⟩ => ⟨S650000, .i32⟩
  | .hbm, ⟨83, _⟩ => ⟨S650000, .i32⟩
  | .hbm, ⟨84, _⟩ => ⟨S650000x1, .i32⟩
  | .hbm, ⟨85, _⟩ => ⟨S650000, .f32⟩
  | .hbm, ⟨86, _⟩ => ⟨S650000, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000x128, .f32⟩
  | .hbm, ⟨96, _⟩ => ⟨S650000x1, .f32⟩
  | .hbm, ⟨97, _⟩ => ⟨S650000x128, .f32⟩
  | .hbm, ⟨98, _⟩ => ⟨S650000x128, .f32⟩
  | .hbm, ⟨99, _⟩ => ⟨S_, .f32⟩
  | .hbm, ⟨100, _⟩ => ⟨S50000x128, .f32⟩
  | .hbm, ⟨101, _⟩ => ⟨S650000x1, .i32⟩
  | .hbm, ⟨102, _⟩ => ⟨S50000x128, .f32⟩
  | .hbm, ⟨103, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x128, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x1, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S650000, .i32⟩
  | .hbm, ⟨75, _⟩ => ⟨S650000, .i1⟩
  | .hbm, ⟨76, _⟩ => ⟨S_, .i32⟩
  | .hbm, ⟨77, _⟩ => ⟨S650000, .i32⟩
  | .hbm, ⟨78, _⟩ => ⟨S650000, .i32⟩
  | .hbm, ⟨79, _⟩ => ⟨S650000, .i32⟩
  | .hbm, ⟨80, _⟩ => ⟨S650000x1, .i32⟩
  | .hbm, ⟨81, _⟩ => ⟨S650000, .f32⟩
  | .hbm, ⟨82, _⟩ => ⟨S_, .i32⟩
  | .hbm, ⟨83, _⟩ => ⟨S650000, .i32⟩
  | .hbm, ⟨84, _⟩ => ⟨S650000, .i1⟩
  | .hbm, ⟨85, _⟩ => ⟨S_, .i32⟩
  | .hbm, ⟨86, _⟩ => ⟨S650000, .i32⟩
  | .hbm, ⟨87, _⟩ => ⟨S650000, .i32⟩
  | .hbm, ⟨88, _⟩ => ⟨S650000, .i32⟩
  | .hbm, ⟨89, _⟩ => ⟨S650000x1, .i32⟩
  | .hbm, ⟨90, _⟩ => ⟨S650000, .f32⟩
  | .hbm, ⟨91, _⟩ => ⟨S650000, .f32⟩
  | .hbm, ⟨92, _⟩ => ⟨S_, .i32⟩
  | .hbm, ⟨93, _⟩ => ⟨S650000, .i32⟩
  | .hbm, ⟨94, _⟩ => ⟨S650000, .i1⟩
  | .hbm, ⟨95, _⟩ => ⟨S_, .i32⟩
  | .hbm, ⟨96, _⟩ => ⟨S650000, .i32⟩
  | .hbm, ⟨97, _⟩ => ⟨S650000, .i32⟩
  | .hbm, ⟨98, _⟩ => ⟨S650000, .i32⟩
  | .hbm, ⟨99, _⟩ => ⟨S650000x1, .i32⟩
  | .hbm, ⟨100, _⟩ => ⟨S650000x128, .f32⟩
  | .hbm, ⟨101, _⟩ => ⟨S650000x1, .f32⟩
  | .hbm, ⟨102, _⟩ => ⟨S650000x128, .f32⟩
  | .hbm, ⟨103, _⟩ => ⟨S650000x128, .f32⟩
  | .hbm, ⟨104, _⟩ => ⟨S_, .f32⟩
  | .hbm, ⟨105, _⟩ => ⟨S50000x128, .f32⟩
  | .hbm, ⟨106, _⟩ => ⟨S650000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  dot_S50000x128_S128x128_S50000x128_1_0_0_1_n_n_wf : DotDims.WF S50000x128 S128x128 S50000x128 [1] [0] [0] [1] [] []
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.Layer.lean ====
import proofs.«139007_j20340965114257_1_alg».proof.Proof.LibDenseDefs
import Idealize.ShloMosaic.PureOps.Ideal
import Idealize.ShloMosaic.Lib.ValueIdx

/-!
# One graph-convolution layer's two dense steps, as whole-array functions

A layer of the network is `relu (A (x · W) + b)`, where `A` is the normalised adjacency operator, applied edge by
edge (gather the rows of `x · W` at the edges' sources, scale each by the edge's norm, add it into the row of the edge's
target). The two dense steps around `A` are stated here index by index over the extended reals:

* `mm x w`: entry `(r, q)` is `∑ k, x[r, k] · w[k, q]`;
* `br a b`: entry `(r, q)` is `max (a[r, q] + b[q]) 0`.
-/

noncomputable section

namespace Cert.Gcn

open Idealize.ShloMosaic Idealize.ShloMosaic.ValueIdx Cert.LibDense

/-- The product `x · w` of a `50000 × 128` array with a `128 × 128` one. -/
def mm (x : Mat 50000 128) (w : Mat 128 128) : Mat 50000 128 :=
  fun i => ∑ k : Fin 128, x (ix2 (i 0) k) * w (ix2 k (i 1))

/-- The bias added along the rows, then `relu`. -/
def br (a : Mat 50000 128) (b : Row 128) : Mat 50000 128 :=
  fun i => relu (a i + b (ix1 (i 1)))

theorem mm_apply (x : Mat 50000 128) (w : Mat 128 128) (r : Fin 50000) (q : Fin 128) :
    mm x w (ix2 r q) = ∑ k : Fin 128, x (ix2 r k) * w (ix2 k q) := rfl

theorem br_apply (a : Mat 50000 128) (b : Row 128) (r : Fin 50000) (q : Fin 128) :
    br a b (ix2 r q) = relu (a (ix2 r q) + b (ix1 q)) := rfl

end Cert.Gcn

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.MatMul0.lean ====
import proofs.«139007_j20340965114257_1_alg».proof.Proof.Gen.KernelIdeal.Frame
import proofs.«139007_j20340965114257_1_alg».proof.Proof.Layer
import proofs.«139007_j20340965114257_1_alg».proof.Proof.LibContract
import Idealize.ShloMosaic.Lib.Pipeline.Value
import Idealize.ShloMosaic.Lib.ValueIdx

/-!
# Region 0: the product with the weight, tile by tile

The kernel walks the `50000 × 128` array in ten tiles of 5000 rows and multiplies each tile into the whole
`128 × 128` weight. Entry `(r, q)` of a tile's result is the tile's row `r` against the weight's column `q`; the
tiles cover the array, so the result array is `mm` of the two input arrays, whatever they hold when the region is entered.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.MatMul0

open Cert.KernelIdeal Cert.KernelIdeal.Gen Cert.LibDense Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at an entry of the tile: the tile's row against the weight's column, summed over the 128
    shared coordinates (a change of float format is the identity on the extended reals, and the accumulator starts at zero). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  refine Eq.trans ?_ (matmul_plain_zero_apply 5000 128 128 none (φ₁ := .bf16) (φ₂ := .bf16) x0 x1 p q)
  -- a shape cast to the same shape, where the body has one, is the identity
  first
    | (unfold k0_pay1; simp only [shapeCast_self]; rfl)
    | rfl

/-- The same at any index of the tile. -/
theorem pay_at (x0 : Vec Ideal S5000x128 .f32) (x1 : Vec Ideal S128x128 .f32) (y : S5000x128.Idx) :
    k0_pay1 x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  exact pay_apply x0 x1 p q

/-- The printed index maps over the grid: the output tile moves with the input tile, tile `t` starts at row `5000 t`,
    the weight is read whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 :=
  (by decide +kernel : ∀ t : Fin grid0.N, _)

set_option maxHeartbeats 4000000 in
theorem flushed_eq (c : Dev nD) (t : Fin cfg0.N) :
    (dat0 V c).flushed 2 t = ((cfg0.win 2).blk t).view.read (Elt Ideal) (mm (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx_facts t
  funext j
  show k0_pay1 (iblk0 V c 0 t) (iblk0 V c 1 t) j = mm (V c (Pipeline.arrRef spec0 0)) (V c (Pipeline.arrRef spec0 1)) (((cfg0.win 2).blk t).view.emb j)
  refine (pay_at _ _ j).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  -- the tile's row is the array's row at the tile's place; the weight is read whole
  have hx : iblk0 V c 0 t (ix2 (j 0) k) = V c (Pipeline.arrRef spec0 0) (ix2 ((((cfg0.win 2).blk t).view.emb j) 0) k) := by
    show V c (Pipeline.arrRef spec0 0) (((cfg0.win 0).blk t).view.emb (ix2 (j 0) k)) = _
    rw [h0]
    try rfl
  have hy : iblk0 V c 1 t (ix2 k (j 1)) = V c (Pipeline.arrRef spec0 1) (ix2 k ((((cfg0.win 2).blk t).view.emb j) 1)) := by
    show V c (Pipeline.arrRef spec0 1) (((cfg0.win 1).blk t).view.emb (ix2 k (j 1))) = _
    rw [h1]
    try rfl
  rw [hx, hy]

/-- Every row of the array lies in the tile of its block of 5000 rows. -/
theorem cover (i : S50000x128.Idx) : ∃ t : Fin cfg0.N, (cfg0.win 2).flush t = true ∧ i ∈ ((cfg0.win 2).blk t).view.set := by
  have hi0 : (i 0).val < 50000 := idx2_lt0 i
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  show i ∈ ((View.whole main_v17).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's result array after the run: the product of its two input arrays. -/
theorem arr (c : Dev nD) :
    (dat0 V c).arrAt 2 cfg0.N = mm (V c (Pipeline.arrRef spec0 0)) (V c (Pipeline.arrRef spec0 1)) :=
  (dat0 V c).arrAt_eq_of_cover 2 _ (fun t _ => flushed_eq V c t) cover

end Cert.KernelIdeal.MatMul0

end
-- ==== Proof.LibLayout.lean ====
import proofs.«139007_j20340965114257_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.BiasRelu1.lean ====
import proofs.«139007_j20340965114257_1_alg».proof.Proof.Gen.KernelIdeal.Frame
import proofs.«139007_j20340965114257_1_alg».proof.Proof.Layer
import proofs.«139007_j20340965114257_1_alg».proof.Proof.LibLayout
import Idealize.ShloMosaic.Lib.Pipeline.Value
import Idealize.ShloMosaic.Lib.ValueIdx

/-!
# Region 1: the bias added along the rows and `relu`, tile by tile

The kernel walks the `50000 × 128` array in ten tiles of 5000 rows. At a tile it adds the bias vector to every row
and takes `max · 0`. Each entry of a tile's result depends on the same entry of the input tile and on the bias of its
column, the tiles cover the array, so the result array is `br` of the two input arrays, whatever they hold when the
region is entered.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.BiasRelu1

open Cert.KernelIdeal Cert.KernelIdeal.Gen Cert.LibDense Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic at an entry of the tile: the tile's entry plus the bias of its column, then `relu`. -/
theorem pay_eq (x0 : Vec Ideal S5000x128 .f32) (x1 : Vec Ideal S128 .f32) :
    k1_pay1 x0 x1 = (maximumf (addf (shapeCast S5000x128 x0 shapeCasts_S5000x128_S5000x128 : FVec Ideal S5000x128 .f32)
        (broadcastTo S5000x128 (shapeCast S1x128 x1 shapeCasts_S128_S1x128 : FVec Ideal S1x128 .f32) broadcasts_S1x128_S5000x128 : FVec Ideal S5000x128 .f32))
      (broadcast S5000x128 (Scalar.ofBits (F := Ideal) .f32 0x00000000#32)) : FVec Ideal S5000x128 .f32) := rfl

theorem pay_apply (x0 : Vec Ideal S5000x128 .f32) (x1 : Vec Ideal S128 .f32) (p : Fin 5000) (q : Fin 128) :
    k1_pay1 x0 x1 (ix2 p q) = relu (x0 (ix2 p q) + x1 (ix1 q)) := by
  rw [pay_eq, kernRelu_eq]
  simp only [reluM, addf_apply, shapeCast_self]
  rw [kernBias_apply]

/-- The same at any index of the tile. -/
theorem pay_at (x0 : Vec Ideal S5000x128 .f32) (x1 : Vec Ideal S128 .f32) (y : S5000x128.Idx) :
    k1_pay1 x0 x1 y = relu (x0 y + x1 (ix1 (y 1))) := by
  obtain ⟨p, q, rfl⟩ : ∃ (p : Fin 5000) (q : Fin 128), y = ix2 p q := ⟨y 0, y 1, eq_ix2 y⟩
  exact pay_apply x0 x1 p q

/-- The printed index maps over the grid: the output tile moves with the input tile, tile `t` starts at row `5000 t`,
    the bias is read whole at every point. -/
theorem idx_facts : ∀ t : Fin cfg1.N, win1_0.index t (0 : Fin 2) = t.val ∧ win1_0.index t (1 : Fin 2) = 0
    ∧ win1_1.index t (0 : Fin 1) = 0 ∧ win1_2.index t (0 : Fin 2) = t.val ∧ win1_2.index t (1 : Fin 2) = 0 :=
  (by decide +kernel : ∀ t : Fin grid1.N, _)

theorem flushed_eq (c : Dev nD) (t : Fin cfg1.N) :
    (dat1 V c).flushed 2 t = ((cfg1.win 2).blk t).view.read (Elt Ideal) (br (V c (Pipeline.arrRef spec1 0)) (V c (Pipeline.arrRef spec1 1))) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := idx_facts t
  funext j
  show k1_pay1 (iblk1 V c 0 t) (iblk1 V c 1 t) j = br (V c (Pipeline.arrRef spec1 0)) (V c (Pipeline.arrRef spec1 1)) (((cfg1.win 2).blk t).view.emb j)
  refine (pay_at _ _ j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix1 (j 1)) = ix1 ((((cfg1.win 2).blk t).view.emb j) 1) := by
    funext a; apply Fin.ext
    match a with
    | ⟨0, _⟩ => show win1_1.index t (0 : Fin 1) * 128 + 1 * (j 1).val = win1_2.index t (1 : Fin 2) * 128 + 1 * (j 1).val; omega
  -- the tile's entry is the array's at the tile's place; the bias is read whole
  have hx : iblk1 V c 0 t j = V c (Pipeline.arrRef spec1 0) (((cfg1.win 2).blk t).view.emb j) := by
    show V c (Pipeline.arrRef spec1 0) (((cfg1.win 0).blk t).view.emb j) = _
    rw [h0]
    try rfl
  have hy : iblk1 V c 1 t (ix1 (j 1)) = V c (Pipeline.arrRef spec1 1) (ix1 ((((cfg1.win 2).blk t).view.emb j) 1)) := by
    show V c (Pipeline.arrRef spec1 1) (((cfg1.win 1).blk t).view.emb (ix1 (j 1))) = _
    rw [h1]
    try rfl
  rw [hx, hy]
  rfl

/-- Every row of the array lies in the tile of its block of 5000 rows. -/
theorem cover (i : S50000x128.Idx) : ∃ t : Fin cfg1.N, (cfg1.win 2).flush t = true ∧ i ∈ ((cfg1.win 2).blk t).view.set := by
  have hi0 : (i 0).val < 50000 := idx2_lt0 i
  have hi1 : (i 1).val < 128 := (i 1).isLt
  have hN : cfg1.N = 10 := N_1
  let t : Fin cfg1.N := ⟨(i 0).val / 5000, by rw [hN]; omega⟩
  obtain ⟨e0, e1, e2, e3, e4⟩ := idx_facts t
  have ht : t.val = (i 0).val / 5000 := rfl
  refine ⟨t, flush1_2 t, ?_⟩
  show i ∈ ((View.whole main_v46).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's result array after the run: the bias added along the rows of its first input, then `relu`. -/
theorem arr (c : Dev nD) :
    (dat1 V c).arrAt 2 cfg1.N = br (V c (Pipeline.arrRef spec1 0)) (V c (Pipeline.arrRef spec1 1)) :=
  (dat1 V c).arrAt_eq_of_cover 2 _ (fun t _ => flushed_eq V c t) cover

end Cert.KernelIdeal.BiasRelu1

end
-- ==== Proof.MatMul2.lean ====
import proofs.«139007_j20340965114257_1_alg».proof.Proof.Gen.KernelIdeal.Frame
import proofs.«139007_j20340965114257_1_alg».proof.Proof.Layer
import proofs.«139007_j20340965114257_1_alg».proof.Proof.LibContract
import Idealize.ShloMosaic.Lib.Pipeline.Value
import Idealize.ShloMosaic.Lib.ValueIdx

/-!
# Region 2: the product with the weight, tile by tile

The kernel walks the `50000 × 128` array in ten tiles of 5000 rows and multiplies each tile into the whole
`128 × 128` weight. Entry `(r, q)` of a tile's result is the tile's row `r` against the weight's column `q`; the
tiles cover the array, so the result array is `mm` of the two input arrays, whatever they hold when the region is entered.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.MatMul2

open Cert.KernelIdeal Cert.KernelIdeal.Gen Cert.LibDense Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at an entry of the tile: the tile's row against the weight's column, summed over the 128
    shared coordinates (a change of float format is the identity on the extended reals, and the accumulator starts at zero). -/
theorem pay_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  refine Eq.trans ?_ (matmul_plain_zero_apply 5000 128 128 none (φ₁ := .bf16) (φ₂ := .bf16) x0 x1 p q)
  -- a shape cast to the same shape, where the body has one, is the identity
  first
    | (unfold k2_pay1; simp only [shapeCast_self]; rfl)
    | rfl

/-- The same at any index of the tile. -/
theorem pay_at (x0 : Vec Ideal S5000x128 .f32) (x1 : Vec Ideal S128x128 .f32) (y : S5000x128.Idx) :
    k2_pay1 x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  exact pay_apply x0 x1 p q

/-- The printed index maps over the grid: the output tile moves with the input tile, tile `t` starts at row `5000 t`,
    the weight is read whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 2) = t.val ∧ win2_2.index t (1 : Fin 2) = 0 :=
  (by decide +kernel : ∀ t : Fin grid2.N, _)

set_option maxHeartbeats 4000000 in
theorem flushed_eq (c : Dev nD) (t : Fin cfg2.N) :
    (dat2 V c).flushed 2 t = ((cfg2.win 2).blk t).view.read (Elt Ideal) (mm (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts t
  funext j
  show k2_pay1 (iblk2 V c 0 t) (iblk2 V c 1 t) j = mm (V c (Pipeline.arrRef spec2 0)) (V c (Pipeline.arrRef spec2 1)) (((cfg2.win 2).blk t).view.emb j)
  refine (pay_at _ _ j).trans ?_
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  -- the tile's row is the array's row at the tile's place; the weight is read whole
  have hx : iblk2 V c 0 t (ix2 (j 0) k) = V c (Pipeline.arrRef spec2 0) (ix2 ((((cfg2.win 2).blk t).view.emb j) 0) k) := by
    show V c (Pipeline.arrRef spec2 0) (((cfg2.win 0).blk t).view.emb (ix2 (j 0) k)) = _
    rw [h0]
    try rfl
  have hy : iblk2 V c 1 t (ix2 k (j 1)) = V c (Pipeline.arrRef spec2 1) (ix2 k ((((cfg2.win 2).blk t).view.emb j) 1)) := by
    show V c (Pipeline.arrRef spec2 1) (((cfg2.win 1).blk t).view.emb (ix2 k (j 1))) = _
    rw [h1]
    try rfl
  rw [hx, hy]

/-- Every row of the array lies in the tile of its block of 5000 rows. -/
theorem cover (i : S50000x128.Idx) : ∃ t : Fin cfg2.N, (cfg2.win 2).flush t = true ∧ i ∈ ((cfg2.win 2).blk t).view.set := by
  have hi0 : (i 0).val < 50000 := idx2_lt0 i
  have hi1 : (i 1).val < 128 := (i 1).isLt
  have hN : cfg2.N = 10 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  show i ∈ ((View.whole main_v47).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's result array after the run: the product of its two input arrays. -/
theorem arr (c : Dev nD) :
    (dat2 V c).arrAt 2 cfg2.N = mm (V c (Pipeline.arrRef spec2 0)) (V c (Pipeline.arrRef spec2 1)) :=
  (dat2 V c).arrAt_eq_of_cover 2 _ (fun t _ => flushed_eq V c t) cover

end Cert.KernelIdeal.MatMul2

end
-- ==== Proof.BiasRelu3.lean ====
import proofs.«139007_j20340965114257_1_alg».proof.Proof.Gen.KernelIdeal.Frame
import proofs.«139007_j20340965114257_1_alg».proof.Proof.Layer
import proofs.«139007_j20340965114257_1_alg».proof.Proof.LibLayout
import Idealize.ShloMosaic.Lib.Pipeline.Value
import Idealize.ShloMosaic.Lib.ValueIdx

/-!
# Region 3: the bias added along the rows and `relu`, tile by tile

The kernel walks the `50000 × 128` array in ten tiles of 5000 rows. At a tile it adds the bias vector to every row
and takes `max · 0`. Each entry of a tile's result depends on the same entry of the input tile and on the bias of its
column, the tiles cover the array, so the result array is `br` of the two input arrays, whatever they hold when the
region is entered.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.BiasRelu3

open Cert.KernelIdeal Cert.KernelIdeal.Gen Cert.LibDense Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic at an entry of the tile: the tile's entry plus the bias of its column, then `relu`. -/
theorem pay_eq (x0 : Vec Ideal S5000x128 .f32) (x1 : Vec Ideal S128 .f32) :
    k3_pay1 x0 x1 = (maximumf (addf (shapeCast S5000x128 x0 shapeCasts_S5000x128_S5000x128 : FVec Ideal S5000x128 .f32)
        (broadcastTo S5000x128 (shapeCast S1x128 x1 shapeCasts_S128_S1x128 : FVec Ideal S1x128 .f32) broadcasts_S1x128_S5000x128 : FVec Ideal S5000x128 .f32))
      (broadcast S5000x128 (Scalar.ofBits (F := Ideal) .f32 0x00000000#32)) : FVec Ideal S5000x128 .f32) := rfl

theorem pay_apply (x0 : Vec Ideal S5000x128 .f32) (x1 : Vec Ideal S128 .f32) (p : Fin 5000) (q : Fin 128) :
    k3_pay1 x0 x1 (ix2 p q) = relu (x0 (ix2 p q) + x1 (ix1 q)) := by
  rw [pay_eq, kernRelu_eq]
  simp only [reluM, addf_apply, shapeCast_self]
  rw [kernBias_apply]

/-- The same at any index of the tile. -/
theorem pay_at (x0 : Vec Ideal S5000x128 .f32) (x1 : Vec Ideal S128 .f32) (y : S5000x128.Idx) :
    k3_pay1 x0 x1 y = relu (x0 y + x1 (ix1 (y 1))) := by
  obtain ⟨p, q, rfl⟩ : ∃ (p : Fin 5000) (q : Fin 128), y = ix2 p q := ⟨y 0, y 1, eq_ix2 y⟩
  exact pay_apply x0 x1 p q

/-- The printed index maps over the grid: the output tile moves with the input tile, tile `t` starts at row `5000 t`,
    the bias is read whole at every point. -/
theorem idx_facts : ∀ t : Fin cfg3.N, win3_0.index t (0 : Fin 2) = t.val ∧ win3_0.index t (1 : Fin 2) = 0
    ∧ win3_1.index t (0 : Fin 1) = 0 ∧ win3_2.index t (0 : Fin 2) = t.val ∧ win3_2.index t (1 : Fin 2) = 0 :=
  (by decide +kernel : ∀ t : Fin grid3.N, _)

theorem flushed_eq (c : Dev nD) (t : Fin cfg3.N) :
    (dat3 V c).flushed 2 t = ((cfg3.win 2).blk t).view.read (Elt Ideal) (br (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  obtain ⟨e0, e1, e2, e3, e4⟩ := idx_facts t
  funext j
  show k3_pay1 (iblk3 V c 0 t) (iblk3 V c 1 t) j = br (V c (Pipeline.arrRef spec3 0)) (V c (Pipeline.arrRef spec3 1)) (((cfg3.win 2).blk t).view.emb j)
  refine (pay_at _ _ j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix1 (j 1)) = ix1 ((((cfg3.win 2).blk t).view.emb j) 1) := by
    funext a; apply Fin.ext
    match a with
    | ⟨0, _⟩ => show win3_1.index t (0 : Fin 1) * 128 + 1 * (j 1).val = win3_2.index t (1 : Fin 2) * 128 + 1 * (j 1).val; omega
  -- the tile's entry is the array's at the tile's place; the bias is read whole
  have hx : iblk3 V c 0 t j = V c (Pipeline.arrRef spec3 0) (((cfg3.win 2).blk t).view.emb j) := by
    show V c (Pipeline.arrRef spec3 0) (((cfg3.win 0).blk t).view.emb j) = _
    rw [h0]
    try rfl
  have hy : iblk3 V c 1 t (ix1 (j 1)) = V c (Pipeline.arrRef spec3 1) (ix1 ((((cfg3.win 2).blk t).view.emb j) 1)) := by
    show V c (Pipeline.arrRef spec3 1) (((cfg3.win 1).blk t).view.emb (ix1 (j 1))) = _
    rw [h1]
    try rfl
  rw [hx, hy]
  rfl

/-- Every row of the array lies in the tile of its block of 5000 rows. -/
theorem cover (i : S50000x128.Idx) : ∃ t : Fin cfg3.N, (cfg3.win 2).flush t = true ∧ i ∈ ((cfg3.win 2).blk t).view.set := by
  have hi0 : (i 0).val < 50000 := idx2_lt0 i
  have hi1 : (i 1).val < 128 := (i 1).isLt
  have hN : cfg3.N = 10 := N_3
  let t : Fin cfg3.N := ⟨(i 0).val / 5000, by rw [hN]; omega⟩
  obtain ⟨e0, e1, e2, e3, e4⟩ := idx_facts t
  have ht : t.val = (i 0).val / 5000 := rfl
  refine ⟨t, flush3_2 t, ?_⟩
  show i ∈ ((View.whole main_v76).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's result array after the run: the bias added along the rows of its first input, then `relu`. -/
theorem arr (c : Dev nD) :
    (dat3 V c).arrAt 2 cfg3.N = br (V c (Pipeline.arrRef spec3 0)) (V c (Pipeline.arrRef spec3 1)) :=
  (dat3 V c).arrAt_eq_of_cover 2 _ (fun t _ => flushed_eq V c t) cover

end Cert.KernelIdeal.BiasRelu3

end
-- ==== Proof.HostChain.lean ====
import proofs.«139007_j20340965114257_1_alg».proof.Proof.Gen.KernelIdeal.Launch
import Idealize.ShloMosaic.Lib.StableHlo.Run

/-!
# The host operations between the kernels, as functions

Around its four kernels the program runs plain array operations. Before the first kernel: the edge list with a self
loop appended per node (`srcOf`, `dstOf`: row 0 and row 1 of the edge array, each followed by `0 … 49999`), and
`disOf`, the nodes' `deg^(-1/2)` (the degree counts the edges arriving at a node; a node of degree zero gets `0`).
Between the kernels of a layer: the aggregation `agg xw src dst dis` — row `e` of `xw` gathered at `src[e]`
(an index below zero counted from the end, as jnp reads it), scaled by `dis[src[e]] · dis[dst[e]]`, and added into row
`dst[e]` of a zero array. Both layers run the same aggregation over the same three index arrays.

Each stretch of host operations, folded over any buffer contents, leaves its result buffer at the function of the
contents it read.
-/

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable {F : FTy → Type} [FloatOps F]

/-- Row `r` of the edge array, then the node numbers `0 … 49999` (the self loops). -/
def edgeRow (r : Fin 2) (ei : (⟨S2x600000, .i32⟩ : BufTy).Contents (Elt F)) : (⟨S650000, .i32⟩ : BufTy).Contents (Elt F) :=
  match r with
  | 0 => concatenate S650000 0 [⟨S600000, shapeCast _ (extractStridedSlice S1x600000 ![0, 0] ei slices_S2x600000_S1x600000_0_0) shapeCasts_S1x600000_S600000⟩, ⟨S50000, iotaInDim S50000 32 0⟩] concatenates_S600000_S50000_S650000_d0
  | 1 => concatenate S650000 0 [⟨S600000, shapeCast _ (extractStridedSlice S1x600000 ![1, 0] ei slices_S2x600000_S1x600000_1_0) shapeCasts_S1x600000_S600000⟩, ⟨S50000, iotaInDim S50000 32 0⟩] concatenates_S600000_S50000_S650000_d0

/-- An index below zero counts from the end: `i + 50000`. -/
def wrap (v : (⟨S650000, .i32⟩ : BufTy).Contents (Elt F)) : (⟨S650000, .i32⟩ : BufTy).Contents (Elt F) :=
  select (cmpi .slt v (broadcastInDim S650000 ![] bcast_S_S650000 (constantI S_ 32 0#32)))
    (addi v (broadcastInDim S650000 ![] bcast_S_S650000 (constantI S_ 32 50000#32))) v

/-- The aggregation over the edges: gather the rows at the sources, scale by the edges' norms, add into the targets' rows. -/
def agg (xw : (⟨S50000x128, .f32⟩ : BufTy).Contents (Elt F)) (src dst : (⟨S650000, .i32⟩ : BufTy).Contents (Elt F))
    (dis : (⟨S50000, .f32⟩ : BufTy).Contents (Elt F)) : (⟨S50000x128, .f32⟩ : BufTy).Contents (Elt F) :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 dst)
    (mulf (Host.gather gather_S50000x128_S650000x1_S650000x128_1_0_n_n_0_1_1128 xw (broadcastInDim S650000x1 ![0] bcast_S650000_S650000x1_0 (wrap src)))
      (broadcastInDim S650000x128 ![0, 1] bcast_S650000x1_S650000x128_0_1 (broadcastInDim S650000x1 ![0] bcast_S650000_S650000x1_0
        (mulf (Host.gather gather_S50000_S650000x1_S650000_n_0_n_n_0_1_1 dis (broadcastInDim S650000x1 ![0] bcast_S650000_S650000x1_0 (wrap src)))
          (Host.gather gather_S50000_S650000x1_S650000_n_0_n_n_0_1_1 dis (broadcastInDim S650000x1 ![0] bcast_S650000_S650000x1_0 (wrap dst)))))))

set_option maxHeartbeats 8000000 in
/-- The first layer's host stretch leaves `agg` of what it read in its result buffer. -/
theorem after_agg1 (Vx : Valuation τ sig (Elt F)) :
    StableHlo.after hostOps1 Vx (Proc.devRef .tc main_v45)
      = agg (Vx (Proc.devRef .tc main_v17)) (Vx (Proc.devRef .tc main_v3)) (Vx (Proc.devRef .tc main_v6)) (Vx (Proc.devRef .tc main_v16)) := by
  after_results_simp
  rfl

set_option maxHeartbeats 8000000 in
/-- The second layer's host stretch likewise. -/
theorem after_agg2 (Vx : Valuation τ sig (Elt F)) :
    StableHlo.after hostOps3 Vx (Proc.devRef .tc main_v75)
      = agg (Vx (Proc.devRef .tc main_v47)) (Vx (Proc.devRef .tc main_v3)) (Vx (Proc.devRef .tc main_v6)) (Vx (Proc.devRef .tc main_v16)) := by
  after_results_simp
  rfl

/-- The nodes' `deg^(-1/2)`: the degree of a node counts the edges arriving at it (a one added per edge into a zero
    array); where the degree is positive the value is `rsqrt (max deg 1)`, elsewhere `0`. -/
def disOf (dst : (⟨S650000, .i32⟩ : BufTy).Contents (Elt F)) : (⟨S50000, .f32⟩ : BufTy).Contents (Elt F) :=
  select
    (cmpf (F := F) .ogt
      (Host.scatterAdd scatter_S50000_S650000x1_S650000_n_0_0_1 (broadcastInDim S50000 ![] bcast_S_S50000 (constant S_ .f32 0x00000000#32))
        (broadcastInDim S650000x1 ![0] bcast_S650000_S650000x1_0 dst) (broadcastInDim S650000 ![] bcast_S_S650000 (constant S_ .f32 0x3F800000#32)))
      (broadcastInDim S50000 ![] bcast_S_S50000 (constant S_ .f32 0x00000000#32)))
    (Host.rsqrt (maximumf
      (Host.scatterAdd scatter_S50000_S650000x1_S650000_n_0_0_1 (broadcastInDim S50000 ![] bcast_S_S50000 (constant S_ .f32 0x00000000#32))
        (broadcastInDim S650000x1 ![0] bcast_S650000_S650000x1_0 dst) (broadcastInDim S650000 ![] bcast_S_S650000 (constant S_ .f32 0x3F800000#32)))
      (broadcastInDim S50000 ![] bcast_S_S50000 (constant S_ .f32 0x3F800000#32))))
    (broadcastInDim S50000 ![] bcast_S_S50000 (constant S_ .f32 0x00000000#32))

/-- The contents after the host operations that run before the first kernel. -/
abbrev prolog (Vx : Valuation τ sig (Elt F)) : Valuation τ sig (Elt F) := StableHlo.after hostOps0_1 (StableHlo.after hostOps0 Vx)

set_option maxHeartbeats 8000000 in
/-- Before the first kernel the host leaves the sources with the self loops, … -/
theorem prolog_src (Vx : Valuation τ sig (Elt F)) :
    prolog Vx (Proc.devRef .tc main_v3) = edgeRow 0 (Vx (Proc.devRef .tc main_arg1)) := by
  after_results_simp
  rfl

set_option maxHeartbeats 8000000 in
/-- … the targets with the self loops, … -/
theorem prolog_dst (Vx : Valuation τ sig (Elt F)) :
    prolog Vx (Proc.devRef .tc main_v6) = edgeRow 1 (Vx (Proc.devRef .tc main_arg1)) := by
  after_results_simp
  rfl

set_option maxHeartbeats 8000000 in
/-- … and the nodes' `deg^(-1/2)` over the targets. -/
theorem prolog_dis (Vx : Valuation τ sig (Elt F)) :
    prolog Vx (Proc.devRef .tc main_v16) = disOf (edgeRow 1 (Vx (Proc.devRef .tc main_arg1))) := by
  after_results_simp
  try simp only [TRef.ofBuf, TRef.toBuf, cast_eq]
  rfl

set_option maxHeartbeats 8000000 in
/-- The host operations before the first kernel write none of the float arguments. -/
theorem prolog_keeps (Vx : Valuation τ sig (Elt F)) :
    prolog Vx (Proc.devRef .tc main_arg0) = Vx (Proc.devRef .tc main_arg0)
    ∧ prolog Vx (Proc.devRef .tc main_arg2) = Vx (Proc.devRef .tc main_arg2)
    ∧ prolog Vx (Proc.devRef .tc main_arg3) = Vx (Proc.devRef .tc main_arg3)
    ∧ prolog Vx (Proc.devRef .tc main_arg4) = Vx (Proc.devRef .tc main_arg4)
    ∧ prolog Vx (Proc.devRef .tc main_arg5) = Vx (Proc.devRef .tc main_arg5) := by
  refine ⟨?_, ?_, ?_, ?_, ?_⟩ <;> after_results_simp

set_option maxHeartbeats 8000000 in
/-- The first layer's host stretch writes neither the index arrays nor the later arguments. -/
theorem agg1_keeps (Vx : Valuation τ sig (Elt F)) :
    StableHlo.after hostOps1 Vx (Proc.devRef .tc main_v3) = Vx (Proc.devRef .tc main_v3)
    ∧ StableHlo.after hostOps1 Vx (Proc.devRef .tc main_v6) = Vx (Proc.devRef .tc main_v6)
    ∧ StableHlo.after hostOps1 Vx (Proc.devRef .tc main_v16) = Vx (Proc.devRef .tc main_v16)
    ∧ StableHlo.after hostOps1 Vx (Proc.devRef .tc main_arg3) = Vx (Proc.devRef .tc main_arg3)
    ∧ StableHlo.after hostOps1 Vx (Proc.devRef .tc main_arg4) = Vx (Proc.devRef .tc main_arg4)
    ∧ StableHlo.after hostOps1 Vx (Proc.devRef .tc main_arg5) = Vx (Proc.devRef .tc main_arg5) := by
  refine ⟨?_, ?_, ?_, ?_, ?_, ?_⟩ <;> after_results_simp

set_option maxHeartbeats 8000000 in
/-- The second layer's host stretch does not write the last bias. -/
theorem agg2_keeps (Vx : Valuation τ sig (Elt F)) :
    StableHlo.after hostOps3 Vx (Proc.devRef .tc main_arg5) = Vx (Proc.devRef .tc main_arg5) := by
  after_results_simp

end Cert.KernelIdeal.Chain

end
-- ==== Proof.Network.lean ====
import proofs.«139007_j20340965114257_1_alg».proof.Proof.HostChain
import proofs.«139007_j20340965114257_1_alg».proof.Proof.Layer

/-!
# The network as one function of its six arguments

A layer is `br (agg (mm x w) src dst dis) b`: the product with the weight, the aggregation over the edges, the bias
and `relu`. The network is two layers over the same edges: `src` and `dst` are the two rows of the edge array with
a self loop appended per node, `dis` the nodes' `deg^(-1/2)` over `dst`.
-/

noncomputable section

namespace Cert.Gcn

open Idealize.ShloMosaic Cert.LibDense Cert.KernelIdeal Cert.KernelIdeal.Chain

/-- One layer. -/
def layer (x : Mat 50000 128) (w : Mat 128 128) (b : Row 128)
    (src dst : (⟨S650000, .i32⟩ : BufTy).Contents (Elt Ideal)) (dis : (⟨S50000, .f32⟩ : BufTy).Contents (Elt Ideal)) : Mat 50000 128 :=
  br (agg (F := Ideal) (mm x w) src dst dis) b

/-- The two layers, over the edges of `ei`. -/
def net (x : Mat 50000 128) (ei : (⟨S2x600000, .i32⟩ : BufTy).Contents (Elt Ideal)) (w1 : Mat 128 128) (b1 : Row 128)
    (w2 : Mat 128 128) (b2 : Row 128) : Mat 50000 128 :=
  layer (layer x w1 b1 (edgeRow 0 ei) (edgeRow 1 ei) (disOf (edgeRow 1 ei))) w2 b2
    (edgeRow 0 ei) (edgeRow 1 ei) (disOf (edgeRow 1 ei))

end Cert.Gcn

end
-- ==== Proof.KernelValue.lean ====
import proofs.«139007_j20340965114257_1_alg».proof.Proof.Gen.KernelIdeal.Frame
import proofs.«139007_j20340965114257_1_alg».proof.Proof.MatMul0
import proofs.«139007_j20340965114257_1_alg».proof.Proof.BiasRelu1
import proofs.«139007_j20340965114257_1_alg».proof.Proof.MatMul2
import proofs.«139007_j20340965114257_1_alg».proof.Proof.BiasRelu3
import proofs.«139007_j20340965114257_1_alg».proof.Proof.HostChain
import proofs.«139007_j20340965114257_1_alg».proof.Proof.Network

/-!
# What the kernel program's result buffer holds after the run

The run's buffer contents are followed from the launch to the return, boundary by boundary. Before the first
kernel the host leaves the edges' sources and targets (self loops appended) and the nodes' `deg^(-1/2)`; no later
operation writes these three arrays, nor an argument. Region 0 leaves `x · W1`; the host aggregates it over the edges;
region 1 adds `b1` and applies `relu`; region 2 multiplies by `W2`; the host aggregates again; region 3 adds `b2` and
applies `relu`. So the result buffer ends at `net` of the six arguments.
-/

set_option maxRecDepth 16384

noncomputable section

open Idealize.ShloMosaic Idealize.ShloMosaic.TcCoe Idealize.SL.Sem

namespace Cert.KernelIdeal.KValue

open Cert.KernelIdeal Cert.KernelIdeal.Gen Cert.KernelIdeal.Chain Cert.Gcn Cert.LibDense

variable (m : (ℓ : Loc nD τ sig) → Buf (Elt Ideal) ℓ) (ρ : Dev nD → PrngReg) (c : Dev nD)

/-- The edges' sources, the edges' targets and the nodes' `deg^(-1/2)`, of the launch memory's edge array. -/
abbrev src := edgeRow (F := Ideal) 0 (m ((c : Thread nD τ).loc main_arg1))
abbrev dst := edgeRow (F := Ideal) 1 (m ((c : Thread nD τ).loc main_arg1))
abbrev dis := disOf (F := Ideal) (dst m c)

/-! ## Region 0's entry -/

theorem W2_src : W2 m ρ c (Proc.devRef .tc main_v3) = src m c := prolog_src (W0 m ρ c)
theorem W2_dst : W2 m ρ c (Proc.devRef .tc main_v6) = dst m c := prolog_dst (W0 m ρ c)
theorem W2_dis : W2 m ρ c (Proc.devRef .tc main_v16) = dis m c := prolog_dis (W0 m ρ c)
theorem W2_arg0 : W2 m ρ c (Proc.devRef .tc main_arg0) = m ((c : Thread nD τ).loc main_arg0) := (prolog_keeps (W0 m ρ c)).1
theorem W2_arg2 : W2 m ρ c (Proc.devRef .tc main_arg2) = m ((c : Thread nD τ).loc main_arg2) := (prolog_keeps (W0 m ρ c)).2.1
theorem W2_arg3 : W2 m ρ c (Proc.devRef .tc main_arg3) = m ((c : Thread nD τ).loc main_arg3) := (prolog_keeps (W0 m ρ c)).2.2.1
theorem W2_arg4 : W2 m ρ c (Proc.devRef .tc main_arg4) = m ((c : Thread nD τ).loc main_arg4) := (prolog_keeps (W0 m ρ c)).2.2.2.1
theorem W2_arg5 : W2 m ρ c (Proc.devRef .tc main_arg5) = m ((c : Thread nD τ).loc main_arg5) := (prolog_keeps (W0 m ρ c)).2.2.2.2

/-! ## Region 0's exit: `x · W1` -/

theorem W3_xw : W3 m ρ c (Proc.devRef .tc main_v17)
    = mm (m ((c : Thread nD τ).loc main_arg0)) (m ((c : Thread nD τ).loc main_arg2)) := by
  refine (W3_arr m ρ c 2).trans ((MatMul0.arr (V2 m ρ) c).trans ?_)
  show mm (W2 m ρ c (Proc.devRef .tc main_arg0)) (W2 m ρ c (Proc.devRef .tc main_arg2)) = _
  rw [W2_arg0, W2_arg2]

theorem W3_src : W3 m ρ c (Proc.devRef .tc main_v3) = src m c := (W3_of_ne m ρ c main_v3 (by decide)).trans (W2_src m ρ c)
theorem W3_dst : W3 m ρ c (Proc.devRef .tc main_v6) = dst m c := (W3_of_ne m ρ c main_v6 (by decide)).trans (W2_dst m ρ c)
theorem W3_dis : W3 m ρ c (Proc.devRef .tc main_v16) = dis m c := (W3_of_ne m ρ c main_v16 (by decide)).trans (W2_dis m ρ c)
theorem W3_arg3 : W3 m ρ c (Proc.devRef .tc main_arg3) = m ((c : Thread nD τ).loc main_arg3) := (W3_of_ne m ρ c main_arg3 (by decide)).trans (W2_arg3 m ρ c)
theorem W3_arg4 : W3 m ρ c (Proc.devRef .tc main_arg4) = m ((c : Thread nD τ).loc main_arg4) := (W3_of_ne m ρ c main_arg4 (by decide)).trans (W2_arg4 m ρ c)
theorem W3_arg5 : W3 m ρ c (Proc.devRef .tc main_arg5) = m ((c : Thread nD τ).loc main_arg5) := (W3_of_ne m ρ c main_arg5 (by decide)).trans (W2_arg5 m ρ c)

/-! ## Region 1's entry: the first aggregation -/

/-- The first layer before its bias. -/
abbrev agg1 := agg (F := Ideal) (mm (m ((c : Thread nD τ).loc main_arg0)) (m ((c : Thread nD τ).loc main_arg2))) (src m c) (dst m c) (dis m c)

theorem W4_agg : W4 m ρ c (Proc.devRef .tc main_v45) = agg1 m c := by
  refine (after_agg1 (W3 m ρ c)).trans ?_
  rw [W3_xw, W3_src, W3_dst, W3_dis]

theorem W4_src : W4 m ρ c (Proc.devRef .tc main_v3) = src m c := (agg1_keeps (W3 m ρ c)).1.trans (W3_src m ρ c)
theorem W4_dst : W4 m ρ c (Proc.devRef .tc main_v6) = dst m c := (agg1_keeps (W3 m ρ c)).2.1.trans (W3_dst m ρ c)
theorem W4_dis : W4 m ρ c (Proc.devRef .tc main_v16) = dis m c := (agg1_keeps (W3 m ρ c)).2.2.1.trans (W3_dis m ρ c)
theorem W4_arg3 : W4 m ρ c (Proc.devRef .tc main_arg3) = m ((c : Thread nD τ).loc main_arg3) := (agg1_keeps (W3 m ρ c)).2.2.2.1.trans (W3_arg3 m ρ c)
theorem W4_arg4 : W4 m ρ c (Proc.devRef .tc main_arg4) = m ((c : Thread nD τ).loc main_arg4) := (agg1_keeps (W3 m ρ c)).2.2.2.2.1.trans (W3_arg4 m ρ c)
theorem W4_arg5 : W4 m ρ c (Proc.devRef .tc main_arg5) = m ((c : Thread nD τ).loc main_arg5) := (agg1_keeps (W3 m ρ c)).2.2.2.2.2.trans (W3_arg5 m ρ c)

/-! ## Region 1's exit: the first layer -/

/-- The first layer. -/
abbrev h1 := br (agg1 m c) (m ((c : Thread nD τ).loc main_arg3))

theorem W5_h : W5 m ρ c (Proc.devRef .tc main_v46) = h1 m c := by
  refine (W5_arr m ρ c 2).trans ((BiasRelu1.arr (V4 m ρ) c).trans ?_)
  show br (W4 m ρ c (Proc.devRef .tc main_v45)) (W4 m ρ c (Proc.devRef .tc main_arg3)) = _
  rw [W4_agg, W4_arg3]

theorem W5_src : W5 m ρ c (Proc.devRef .tc main_v3) = src m c := (W5_of_ne m ρ c main_v3 (by decide)).trans (W4_src m ρ c)
theorem W5_dst : W5 m ρ c (Proc.devRef .tc main_v6) = dst m c := (W5_of_ne m ρ c main_v6 (by decide)).trans (W4_dst m ρ c)
theorem W5_dis : W5 m ρ c (Proc.devRef .tc main_v16) = dis m c := (W5_of_ne m ρ c main_v16 (by decide)).trans (W4_dis m ρ c)
theorem W5_arg4 : W5 m ρ c (Proc.devRef .tc main_arg4) = m ((c : Thread nD τ).loc main_arg4) := (W5_of_ne m ρ c main_arg4 (by decide)).trans (W4_arg4 m ρ c)
theorem W5_arg5 : W5 m ρ c (Proc.devRef .tc main_arg5) = m ((c : Thread nD τ).loc main_arg5) := (W5_of_ne m ρ c main_arg5 (by decide)).trans (W4_arg5 m ρ c)

/-! ## Region 2's exit: the first layer times `W2` -/

theorem W6_xw : W6 m ρ c (Proc.devRef .tc main_v47) = mm (h1 m c) (m ((c : Thread nD τ).loc main_arg4)) := by
  refine (W6_arr m ρ c 2).trans ((MatMul2.arr (V5 m ρ) c).trans ?_)
  show mm (W5 m ρ c (Proc.devRef .tc main_v46)) (W5 m ρ c (Proc.devRef .tc main_arg4)) = _
  rw [W5_h, W5_arg4]

theorem W6_src : W6 m ρ c (Proc.devRef .tc main_v3) = src m c := (W6_of_ne m ρ c main_v3 (by decide)).trans (W5_src m ρ c)
theorem W6_dst : W6 m ρ c (Proc.devRef .tc main_v6) = dst m c := (W6_of_ne m ρ c main_v6 (by decide)).trans (W5_dst m ρ c)
theorem W6_dis : W6 m ρ c (Proc.devRef .tc main_v16) = dis m c := (W6_of_ne m ρ c main_v16 (by decide)).trans (W5_dis m ρ c)
theorem W6_arg5 : W6 m ρ c (Proc.devRef .tc main_arg5) = m ((c : Thread nD τ).loc main_arg5) := (W6_of_ne m ρ c main_arg5 (by decide)).trans (W5_arg5 m ρ c)

/-! ## Region 3's entry: the second aggregation; its exit: the result -/

theorem W7_agg : W7 m ρ c (Proc.devRef .tc main_v75)
    = agg (F := Ideal) (mm (h1 m c) (m ((c : Thread nD τ).loc main_arg4))) (src m c) (dst m c) (dis m c) := by
  refine (after_agg2 (W6 m ρ c)).trans ?_
  rw [W6_xw, W6_src, W6_dst, W6_dis]

theorem W7_arg5 : W7 m ρ c (Proc.devRef .tc main_arg5) = m ((c : Thread nD τ).loc main_arg5) := (agg2_keeps (W6 m ρ c)).trans (W6_arg5 m ρ c)

/-- The result buffer after the run is the network of the six arguments. -/
theorem result : W8 m ρ c (Proc.devRef .tc main_v76)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 2).trans ((BiasRelu3.arr (V7 m ρ) c).trans ?_)
  show br (W7 m ρ c (Proc.devRef .tc main_v75)) (W7 m ρ c (Proc.devRef .tc main_arg5)) = _
  rw [W7_agg, W7_arg5]
  rfl

end Cert.KernelIdeal.KValue

end
-- ==== Proof.RefValue.lean ====
import proofs.«139007_j20340965114257_1_alg».proof.Proof.RefRead
import proofs.«139007_j20340965114257_1_alg».proof.Proof.Network
import proofs.«139007_j20340965114257_1_alg».proof.Proof.LibContract
import proofs.«139007_j20340965114257_1_alg».proof.Proof.LibLayout

/-!
# The reference program's result is the same network

The reference runs the same host operations as the kernel program around its dense steps; where the kernel program
launches a kernel, the reference has a `dot_general` (entry `(r, q)`: the row `r` against the column `q`, summed) or a
bias broadcast down the rows, an `add` and `max · 0`. Stage by stage its values are `mm`, `agg`, `br` of the
arguments, so its result is `net`.
-/

set_option maxRecDepth 16384

noncomputable section

open Idealize.ShloMosaic Idealize.ShloMosaic.ValueIdx

namespace Cert.ReferenceIdeal.RefValue

open Cert.ReferenceIdeal Cert.ReferenceIdeal.Gen Cert.ReferenceIdeal.Read Cert.Gcn Cert.LibDense Cert.KernelIdeal.Chain

/-- The reference's `dot_general` of a `50000 × 128` array with a `128 × 128` one is `mm`. -/
theorem dot_eq (x : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none x w = mm x w := by
  funext i
  obtain ⟨p, q, rfl⟩ : ∃ (p : Fin 50000) (q : Fin 128), i = ix2 p q := ⟨i 0, i 1, eq_ix2 i⟩
  exact dotGeneral_plain_apply 50000 128 128 none x w p q

/-- The reference's bias broadcast down the rows, added, then `max · 0`, is `br`. -/
theorem biasRelu_eq (a : (⟨S50000x128, .f32⟩ : BufTy).Contents (Elt Ideal)) (b : (⟨S128, .f32⟩ : BufTy).Contents (Elt Ideal)) :
    maximumf (F := Ideal) (addf a (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)) = br a b := by
  rw [hostRelu_eq]
  funext i
  obtain ⟨p, q, rfl⟩ : ∃ (p : Fin 50000) (q : Fin 128), i = ix2 p q := ⟨i 0, i 1, eq_ix2 i⟩
  simp only [reluM, addf_apply]
  rw [hostBias_apply]
  rfl

variable {F : FTy → Type} [FloatOps F]

/-- The reference's index arrays and `deg^(-1/2)` are the kernel program's, operation for operation. -/
theorem v3_eq (x1 : (⟨S2x600000, .i32⟩ : BufTy).Contents (Elt F)) : val_main_v3 (F := F) x1 = edgeRow 0 x1 := rfl
theorem v6_eq (x1 : (⟨S2x600000, .i32⟩ : BufTy).Contents (Elt F)) : val_main_v6 (F := F) x1 = edgeRow 1 x1 := rfl
theorem v16_eq (x1 : (⟨S2x600000, .i32⟩ : BufTy).Contents (Elt F)) : val_main_v16 (F := F) x1 = disOf (edgeRow 1 x1) := rfl

/-- The first aggregation, operation for operation. -/
theorem v45_eq (x0 : (⟨S50000x128, .f32⟩ : BufTy).Contents (Elt F)) (x1 : (⟨S2x600000, .i32⟩ : BufTy).Contents (Elt F)) (x2 : (⟨S128x128, .f32⟩ : BufTy).Contents (Elt F)) :
    val_main_v45 (F := F) x0 x1 x2 = agg (val_main_v17 (F := F) x0 x2) (edgeRow 0 x1) (edgeRow 1 x1) (disOf (edgeRow 1 x1)) := rfl

/-- The second aggregation, operation for operation. -/
theorem v78_eq (x0 : (⟨S50000x128, .f32⟩ : BufTy).Contents (Elt F)) (x1 : (⟨S2x600000, .i32⟩ : BufTy).Contents (Elt F)) (x2 : (⟨S128x128, .f32⟩ : BufTy).Contents (Elt F))
    (x3 : (⟨S128, .f32⟩ : BufTy).Contents (Elt F)) (x4 : (⟨S128x128, .f32⟩ : BufTy).Contents (Elt F)) :
    val_main_v78 (F := F) x0 x1 x2 x3 x4 = agg (val_main_v50 (F := F) x0 x1 x2 x3 x4) (edgeRow 0 x1) (edgeRow 1 x1) (disOf (edgeRow 1 x1)) := rfl

/-- The reference's result is the network of its arguments. -/
theorem result_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v82 (F := Ideal) x0 x1 x2 x3 x4 x5 = net x0 x1 x2 x3 x4 x5 := by
  have e17 : val_main_v17 (F := Ideal) x0 x2 = mm x0 x2 := dot_eq x0 x2
  have e49 : val_main_v49 (F := Ideal) x0 x1 x2 x3 = br (val_main_v45 (F := Ideal) x0 x1 x2) x3 := biasRelu_eq _ _
  have e50 : val_main_v50 (F := Ideal) x0 x1 x2 x3 x4 = mm (val_main_v49 (F := Ideal) x0 x1 x2 x3) x4 := dot_eq _ _
  have e82 : val_main_v82 (F := Ideal) x0 x1 x2 x3 x4 x5 = br (val_main_v78 (F := Ideal) x0 x1 x2 x3 x4) x5 := biasRelu_eq _ _
  rw [e82, v78_eq, e50, e49, v45_eq, e17]
  rfl

end Cert.ReferenceIdeal.RefValue

end
-- ==== Proof.lean ====
/-
  Two stacked graph-convolution layers with `relu`, `relu (A (h · W) + b)` twice over the same graph, where `A` is the
  normalised adjacency operator applied edge by edge: the kernel program computes `h · W` and `relu (· + b)` in Pallas
  kernels over ten tiles of 5000 rows and everything else on the host; the reference computes all of it on the host.

  On the extended reals the two programs are one function of the six arguments, `Cert.Gcn.net`:
  * a kernel's matrix product into a zero accumulator after a change of float format, and the host's `dot_general`, are
    both `∑ k, x[r, k] · w[k, q]` (`mm`);
  * a kernel's bias row spread down the tile, added, and `max · 0`, and the host's broadcast, `add` and `relu`, are both
    `max (a[r, q] + b[q]) 0` (`br`);
  * the host operations between the dense steps (the edge list with self loops, the degrees' inverse square roots, the
    gather, scale and scatter-add over the edges) are the same operations in both programs.
  No law beyond these readings is used, so the inputs' finiteness is not needed.

  The kernel program's run with its result buffer named is the launch of its four regions (`RunNamed`), its contents
  followed boundary by boundary (`KernelValue`: each region's tiles cover its array, `MatMul0`, `BiasRelu1`, `MatMul2`,
  `BiasRelu3`; the host stretches as functions, `HostChain`); the reference's run is read stage by stage (`RefValue`).
-/
import proofs.«139007_j20340965114257_1_alg».proof.Defs
import proofs.«139007_j20340965114257_1_alg».proof.Proof.Gen.Kernel
import proofs.«139007_j20340965114257_1_alg».proof.Proof.Gen.Kernel.Frame
import proofs.«139007_j20340965114257_1_alg».proof.Proof.Gen.KernelIdeal
import proofs.«139007_j20340965114257_1_alg».proof.Proof.Gen.KernelIdeal.Frame
import proofs.«139007_j20340965114257_1_alg».proof.Proof.Gen.ReferenceIdeal
import proofs.«139007_j20340965114257_1_alg».proof.Proof.Gen.Pre_finite_inputs
import proofs.«139007_j20340965114257_1_alg».proof.Proof.RunNamed
import proofs.«139007_j20340965114257_1_alg».proof.Proof.KernelValue
import proofs.«139007_j20340965114257_1_alg».proof.Proof.RefRun
import proofs.«139007_j20340965114257_1_alg».proof.Proof.RefValue
import Idealize.ShloMosaic.Adequacy
import Idealize.ShloMosaic.Init

noncomputable section

namespace Cert.Proof

open Idealize.ShloMosaic Idealize.SL.Sem

/-- The kernel program as printed runs, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result at `net` of the arguments: the kernel program's result buffer by its regions'
    tiles and the host stretches between them, the reference's by its stages, from memories that agree on the arguments. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KValue.result m ρ c), (h c).2⟩)
      (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, Cert.ReferenceIdeal.RefValue.result_eq]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
